-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008x4096 .f32) (main_arg3 : FVec F S4096x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S512x4096 : Shape := ⟨2, ![512, 4096]⟩
abbrev S128x4096 : Shape := ⟨2, ![128, 4096]⟩
abbrev S4096x128 : Shape := ⟨2, ![4096, 128]⟩
abbrev S512x128 : Shape := ⟨2, ![512, 128]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S8192x4096, .bf16⟩
  | .hbm, ⟨6, _⟩ => ⟨S11008x4096, .bf16⟩
  | .hbm, ⟨7, _⟩ => ⟨S11008x4096, .bf16⟩
  | .hbm, ⟨8, _⟩ => ⟨S4096x11008, .bf16⟩
  | .hbm, ⟨9, _⟩ => ⟨S8192x4096, .f32⟩
  | .hbm, ⟨10, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S4096x128, .bf16⟩
  | .local _ .vmem, ⟨7, _⟩ => ⟨S4096x128, .bf16⟩
  | .local _ .vmem, ⟨8, _⟩ => ⟨S512x4096, .f32⟩
  | .local _ .vmem, ⟨9, _⟩ => ⟨S512x4096, .f32⟩
  | .local _ .vmem, ⟨10, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x4096_S8192x4096 : S4x2048x4096.ShapeCasts S8192x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  transposes_S128x4096_p1_0_S4096x128 : S128x4096.Transposes [1, 0] S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  transposes_S4096x128_p1_0_S128x4096 : S4096x128.Transposes [1, 0] S128x4096
  shapeCasts_S8192x4096_S4x2048x4096 : S8192x4096.ShapeCasts S4x2048x4096
  dot_S512x4096_S4096x128_S512x128_1_0_0_1_n_n_wf : DotDims.WF S512x4096 S4096x128 S512x128 [1] [0] [0] [1] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .bf16 = 32 ∨ (Rect.block (s := S11008x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .bf16 = 32 ∨ (Rect.block (s := S11008x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x11008.size a
  hwx0_3 : ∀ i : grid0.Coords, EltTy.bits .bf16 = 32 ∨ (Rect.block (s := S4096x11008) S4096x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S8192x11008 : Shape := ⟨2, ![8192, 11008]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S4096x11008, .f32⟩
  | .hbm, ⟨6, _⟩ => ⟨S8192x11008, .f32⟩
  | .hbm, ⟨7, _⟩ => ⟨S4096x11008, .f32⟩
  | .hbm, ⟨8, _⟩ => ⟨S8192x11008, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S_, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S11008x4096, .f32⟩
  | .hbm, ⟨20, _⟩ => ⟨S8192x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S11008x4096_S4096x11008_1_0 : S11008x4096.Transposes [1, 0] S4096x11008
  bcast_S_S8192x11008 : S_.BroadcastsInDim S8192x11008 (![] : Fin 0 → Fin S8192x11008.rank)
  transposes_S4096x11008_S11008x4096_1_0 : S4096x11008.Transposes [1, 0] S11008x4096
  shapeCasts_S8192x4096_S4x2048x4096 : S8192x4096.ShapeCasts S4x2048x4096
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.LibBlockedSum.lean ====
/- A sum over a range of naturals cut into consecutive blocks of equal length: summing block by block, each block
   over its places, is summing over the whole range. Stated for a function of the naturals with values in a
   commutative additive monoid, so that the blocks' terms are named by arithmetic on positions alone. -/
import Mathlib.Algebra.BigOperators.Fin
import Mathlib.Algebra.BigOperators.Intervals

open scoped BigOperators

namespace Cert.BlockedSum

variable {M : Type*} [AddCommMonoid M]

/-- Over ranges: the sum over `nb` blocks of the sum over the `bs` places of block `s`, which are the positions
    `bs * s + r`, is the sum over the first `nb * bs` positions. By induction on the number of blocks: the last
    block is the tail of the longer range. -/
theorem sum_range_blocks (f : ℕ → M) (bs : ℕ) : ∀ nb : ℕ,
    ∑ s ∈ Finset.range nb, ∑ r ∈ Finset.range bs, f (bs * s + r) = ∑ k ∈ Finset.range (nb * bs), f k
  | 0 => by simp
  | nb + 1 => by
    rw [Finset.sum_range_succ, sum_range_blocks f bs nb, Nat.succ_mul, Finset.sum_range_add, Nat.mul_comm bs nb]

/-- The same with the places of a block and the positions of the whole range as bounded naturals. -/
theorem sum_blocks_fin (f : ℕ → M) (nb bs : ℕ) :
    ∑ s ∈ Finset.range nb, ∑ r : Fin bs, f (bs * s + r.val) = ∑ k : Fin (nb * bs), f k.val := by
  rw [Fin.sum_univ_eq_sum_range f (nb * bs), ← sum_range_blocks f bs nb]
  exact Finset.sum_congr rfl fun s _ => Fin.sum_univ_eq_sum_range (fun r => f (bs * s + r)) bs

end Cert.BlockedSum
-- ==== Proof.MlpSpec.lean ====
/- The gated feed-forward block as ONE function of its four arrays, over the extended reals.

   With X the tokens ([8192, 4096]), Wg and Wu the gate and up weights ([11008, 4096] each) and Wd the down weights
   ([4096, 11008]):
     g(r, f)   = Σ_j X(r, j) · Wg(f, j)            u(r, f) = Σ_j X(r, j) · Wu(f, j)
     h(r, f)   = (g(r, f) · σ(g(r, f))) · u(r, f)   with σ(z) = 1 / (1 + e^(-z))
     out(r, d) = Σ_f h(r, f) · Wd(d, f).
   The sum over the 11008 hidden units may be taken 128 at a time: the partial sums over the first n blocks of 128
   start at 0, grow by one block's terms at a time, and after 86 blocks are the whole sum. Only commutativity and
   associativity of the addition are used, so nothing here asks the entries to be finite. -/
import Idealize.ShloMosaic.Lib.ValueIdx
import Idealize.ShloMosaic.PureOps.Ideal
import proofs.«134155_j49220325212289_1_alg».proof.Proof.LibBlockedSum

noncomputable section

open scoped BigOperators

namespace Cert.GatedMlp

open Idealize.ShloMosaic Idealize.ShloMosaic.ValueIdx

/-- Tokens by model width. -/
abbrev TokS : Shape := ⟨2, ![8192, 4096]⟩
/-- Hidden units by model width. -/
abbrev UpS : Shape := ⟨2, ![11008, 4096]⟩
/-- Model width by hidden units. -/
abbrev DownS : Shape := ⟨2, ![4096, 11008]⟩

variable (X : TokS.Idx → EReal) (Wg Wu : UpS.Idx → EReal) (Wd : DownS.Idx → EReal)

/-- Token r against hidden unit f of a weight matrix W: Σ_j X(r, j) · W(f, j). -/
def proj (W : UpS.Idx → EReal) (r : Fin 8192) (f : Fin 11008) : EReal :=
  ∑ j : Fin 4096, X (ix2 r j) * W (ix2 f j)

/-- The gated hidden activation h(r, f) = (g · σ(g)) · u. -/
def hidden (r : Fin 8192) (f : Fin 11008) : EReal :=
  (proj X Wg r f * Ideal.logistic (proj X Wg r f)) * proj X Wu r f

/-- The block's result: out(r, d) = Σ_f h(r, f) · Wd(d, f). -/
def out : TokS.Idx → EReal :=
  fun i => ∑ f : Fin 11008, hidden X Wg Wu (i 0) f * Wd (ix2 (i 1) f)

/-- The term of out(r, d) at position k of the hidden axis, and zero past its end. -/
def term (r : Fin 8192) (d : Fin 4096) (k : ℕ) : EReal :=
  if h : k < 11008 then hidden X Wg Wu r ⟨k, h⟩ * Wd (ix2 d ⟨k, h⟩) else 0

/-- The terms of block s of the hidden axis: positions 128 s, …, 128 s + 127. -/
def blockTerms (r : Fin 8192) (d : Fin 4096) (s : ℕ) : EReal :=
  ∑ f' : Fin 128, term X Wg Wu Wd r d (128 * s + f'.val)

/-- The sum over the first n blocks. -/
def partialOut (r : Fin 8192) (d : Fin 4096) (n : ℕ) : EReal :=
  ∑ s ∈ Finset.range n, blockTerms X Wg Wu Wd r d s

theorem partialOut_zero (r : Fin 8192) (d : Fin 4096) : partialOut X Wg Wu Wd r d 0 = 0 :=
  Finset.sum_range_zero _

theorem partialOut_succ (r : Fin 8192) (d : Fin 4096) (n : ℕ) :
    partialOut X Wg Wu Wd r d (n + 1) = partialOut X Wg Wu Wd r d n + blockTerms X Wg Wu Wd r d n :=
  Finset.sum_range_succ _ _

/-- The first block alone, from zero. -/
theorem partialOut_one (r : Fin 8192) (d : Fin 4096) :
    partialOut X Wg Wu Wd r d 1 = 0 + blockTerms X Wg Wu Wd r d 0 := by
  rw [partialOut_succ, partialOut_zero]

/-- All 86 blocks: 86 · 128 = 11008, so the blocked sum is the whole one. -/
theorem partialOut_all (r : Fin 8192) (d : Fin 4096) :
    partialOut X Wg Wu Wd r d 86 = out X Wg Wu Wd (ix2 r d) := by
  unfold partialOut blockTerms out
  rw [Cert.BlockedSum.sum_blocks_fin (term X Wg Wu Wd r d) 86 128]
  show ∑ k : Fin 11008, term X Wg Wu Wd r d k.val = _
  refine Finset.sum_congr rfl fun k _ => ?_
  unfold term
  rw [dif_pos k.isLt]

end Cert.GatedMlp

end
-- ==== Proof.RefIsSpec.lean ====
/- The reference computes the gated feed-forward block's function (MlpSpec.lean) of its arrays.

   Its two projections are matrix products of the tokens with the transposed gate and up weights, so at (r, f) they
   are Σ_j X(r, j) · W(f, j). Its activation multiplies the gate projection g by 1 / (1 + e^(-g)), which is the logistic
   function of g, and then by the up projection. Its last product, with the transposed down weights, sums
   h(r, f) · Wd(d, f) over the hidden units f. -/
import proofs.«134155_j49220325212289_1_alg».proof.Proof.Gen.ReferenceIdeal.Read
import proofs.«134155_j49220325212289_1_alg».proof.Proof.MlpSpec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx Cert.GatedMlp

/-! ## Where each operation reads its operands -/

theorem tok_of_hidden (r : Fin 8192) (d : Fin 4096) (k : Fin 11008) : lidx_main_v8 (ix2 r d) k = ix2 r k :=
  funext fun a => Fin.ext (by match a with | ⟨0, _⟩ => rfl | ⟨1, _⟩ => rfl)

theorem down_of_hidden (r : Fin 8192) (d : Fin 4096) (k : Fin 11008) :
    idx_main_v7 (ridx_main_v8 (ix2 r d) k) = ix2 d k :=
  funext fun a => Fin.ext (by match a with | ⟨0, _⟩ => rfl | ⟨1, _⟩ => rfl)

theorem tok_of_gate (r : Fin 8192) (f : Fin 11008) (j : Fin 4096) : lidx_main_v4 (ix2 r f) j = ix2 r j :=
  funext fun a => Fin.ext (by match a with | ⟨0, _⟩ => rfl | ⟨1, _⟩ => rfl)

theorem weight_of_gate (r : Fin 8192) (f : Fin 11008) (j : Fin 4096) :
    idx_main_v3 (ridx_main_v4 (ix2 r f) j) = ix2 f j :=
  funext fun a => Fin.ext (by match a with | ⟨0, _⟩ => rfl | ⟨1, _⟩ => rfl)

theorem tok_of_up (r : Fin 8192) (f : Fin 11008) (j : Fin 4096) : lidx_main_v2 (ix2 r f) j = ix2 r j :=
  funext fun a => Fin.ext (by match a with | ⟨0, _⟩ => rfl | ⟨1, _⟩ => rfl)

theorem weight_of_up (r : Fin 8192) (f : Fin 11008) (j : Fin 4096) :
    idx_main_v1 (ridx_main_v2 (ix2 r f) j) = ix2 f j :=
  funext fun a => Fin.ext (by match a with | ⟨0, _⟩ => rfl | ⟨1, _⟩ => rfl)

/-! ## The stages -/

variable (x0 : (⟨S4x2048x4096, .f32⟩ : BufTy).Contents (Elt Ideal))
  (x1 x2 : (⟨S11008x4096, .f32⟩ : BufTy).Contents (Elt Ideal))
  (x3 : (⟨S4096x11008, .f32⟩ : BufTy).Contents (Elt Ideal))

/-- The gate projection: tokens against the gate weights. -/
theorem gate_at (r : Fin 8192) (f : Fin 11008) :
    val_main_v4 (F := Ideal) x0 x1 (ix2 r f) = proj (val_main_v0 (F := Ideal) x0) x1 r f := by
  rw [val_main_v4_apply]
  unfold proj
  refine Finset.sum_congr rfl fun j _ => ?_
  rw [val_main_v3_apply, tok_of_gate, weight_of_gate]

/-- The up projection: tokens against the up weights. -/
theorem up_at (r : Fin 8192) (f : Fin 11008) :
    val_main_v2 (F := Ideal) x0 x2 (ix2 r f) = proj (val_main_v0 (F := Ideal) x0) x2 r f := by
  rw [val_main_v2_apply]
  unfold proj
  refine Finset.sum_congr rfl fun j _ => ?_
  rw [val_main_v1_apply, tok_of_up, weight_of_up]

/-- One over one plus the exponential of the negation is the logistic function. -/
theorem recip_one_add_exp_neg (g : EReal) :
    FloatOps.hostDivf (F := Ideal) (φ := .f32) (FloatOps.ofBits .f32 0x3F800000#32)
      (FloatOps.addf (FloatOps.ofBits .f32 0x3F800000#32) (FloatOps.hostUnary .exp (FloatOps.hostNegf g)))
      = Ideal.logistic g := by
  show Ideal.div (Ideal.ofBits .f32 0x3F800000#32) (Ideal.ofBits .f32 0x3F800000#32 + Ideal.exp (-g)) = _
  rw [Ideal.ofBits_one_f32]
  rfl

/-- The gated activation. -/
theorem hidden_at (r : Fin 8192) (f : Fin 11008) :
    val_main_v6 (F := Ideal) x0 x1 x2 (ix2 r f) = hidden (val_main_v0 (F := Ideal) x0) x1 x2 r f := by
  rw [val_main_v6_apply, val_main_v5_apply, val_main_call0_v5_apply, val_main_call0_v4_apply,
    val_main_call0_cst_0_apply, val_main_call0_v3_apply, val_main_call0_v2_apply, val_main_call0_cst_apply,
    val_main_call0_v1_apply, val_main_call0_v0_apply, up_at, gate_at, recip_one_add_exp_neg]
  rfl

/-- The reference's result before its last reshape is the block's function of the reshaped tokens and the weights. -/
theorem result_eq :
    val_main_v8 (F := Ideal) x0 x1 x2 x3 = out (val_main_v0 (F := Ideal) x0) x1 x2 x3 := by
  funext i
  obtain ⟨r, d, rfl⟩ : ∃ (r : Fin 8192) (d : Fin 4096), i = ix2 r d := ⟨i 0, i 1, eq_ix2 i⟩
  rw [val_main_v8_apply]
  show _ = ∑ k : Fin 11008, hidden (val_main_v0 (F := Ideal) x0) x1 x2 r k * x3 (ix2 d k)
  refine Finset.sum_congr rfl fun k _ => ?_
  rw [val_main_v7_apply, tok_of_hidden, down_of_hidden, hidden_at]

end Cert.ReferenceIdeal.RefValue

end
-- ==== Proof.Pieces.lean ====
/- What each of the body's two control cases leaves in the carried accumulator and in the output block, as values.

   At the first hidden block of a token tile the body stores the zero block into the accumulator, reads it back, and
   stores the update of that; otherwise it stores the update of what the point before left. Either way the output
   block is a read-back of the accumulator after its last store. Each store and each load goes through the whole
   buffer, so a read-back of a list of whole-buffer stores is the payload of the last one. -/
import proofs.«134155_j49220325212289_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A load of the whole buffer after a list of stores whose LAST store wrote the whole buffer reads that store's
    payload, whatever came before it. -/
theorem readCov_cons_whole {sg : RefSig} {κ : Kind} {sp : Space} {S : Shape} {e : EltTy}
    (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- Later hidden blocks: the accumulator ends at the update of what it held. -/
theorem acc_later (c : Dev nD) (i : grid0.Coords) (arg2 : Memref sig .tc .vmem S512x4096 .bf16) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S4096x128 .bf16) (harg5 : arg5.IsWhole) (arg6 : Memref sig .tc .vmem S512x4096 .f32) (harg6 : arg6.IsWhole) (arg7 : Memref sig .tc .vmem S512x4096 .f32) (harg7 : arg7.IsWhole) (hc0 : ¬cond0_0 i) (x0 : Vec F S512x4096 .bf16) (x1 : Vec F S128x4096 .bf16) (x2 : Vec F S128x4096 .bf16) (x3 : Vec F S4096x128 .bf16) (xs0 : Vec F S512x4096 .f32) :
    sout0_B_0 c i arg2 harg2 arg3 harg3 arg4 harg4 arg5 harg5 arg6 harg6 arg7 harg7 hc0 x0 x1 x2 x3 xs0 = k0_pay2 x0 x1 x2 xs0 x3 := by
  unfold sout0_B_0
  rw [View.read_writes_eq_canon _ _ _ (scover0_B_0 c i arg2 harg2 arg3 harg3 arg4 harg4 arg5 harg5 arg6 harg6 arg7 harg7 hc0 x0 x1 x2 x3 xs0)]
  unfold kernelRun0_B
  dsimp only
  sl_unfold_words
  rw [View.canon_unit_zero (S := S512x4096) hz]
  simp only [View.readAt_eq_ld, harg2.read_unread, harg3.read_unread, harg4.read_unread, harg5.read_unread,
    harg7.read_unread, View.ld_unit_zero (S := S512x4096) hz, View.ld_unit_zero (S := S128x4096) hz,
    View.ld_unit_zero (S := S4096x128) hz]

/-- Later hidden blocks: the output block is the accumulator read back. -/
theorem out_later (c : Dev nD) (i : grid0.Coords) (arg2 : Memref sig .tc .vmem S512x4096 .bf16) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S4096x128 .bf16) (harg5 : arg5.IsWhole) (arg6 : Memref sig .tc .vmem S512x4096 .f32) (harg6 : arg6.IsWhole) (arg7 : Memref sig .tc .vmem S512x4096 .f32) (harg7 : arg7.IsWhole) (hc0 : ¬cond0_0 i) (x0 : Vec F S512x4096 .bf16) (x1 : Vec F S128x4096 .bf16) (x2 : Vec F S128x4096 .bf16) (x3 : Vec F S4096x128 .bf16) (xs0 : Vec F S512x4096 .f32) :
    out0_B_4 c i arg2 harg2 arg3 harg3 arg4 harg4 arg5 harg5 arg6 harg6 arg7 harg7 hc0 x0 x1 x2 x3 xs0 = k0_pay2 x0 x1 x2 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero (S := S512x4096) hz, readCov_cons_whole _ hz]
  simp only [View.readAt_eq_ld, harg2.read_unread, harg3.read_unread, harg4.read_unread, harg5.read_unread,
    harg7.read_unread, View.ld_unit_zero (S := S512x4096) hz, View.ld_unit_zero (S := S128x4096) hz,
    View.ld_unit_zero (S := S4096x128) hz]

/-- The first hidden block: the accumulator ends at the update of the zero block. -/
theorem acc_first (c : Dev nD) (i : grid0.Coords) (arg2 : Memref sig .tc .vmem S512x4096 .bf16) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S4096x128 .bf16) (harg5 : arg5.IsWhole) (arg6 : Memref sig .tc .vmem S512x4096 .f32) (harg6 : arg6.IsWhole) (arg7 : Memref sig .tc .vmem S512x4096 .f32) (harg7 : arg7.IsWhole) (hc0 : cond0_0 i) (x0 : Vec F S512x4096 .bf16) (x1 : Vec F S128x4096 .bf16) (x2 : Vec F S128x4096 .bf16) (x3 : Vec F S4096x128 .bf16) :
    sout0_A_0 c i arg2 harg2 arg3 harg3 arg4 harg4 arg5 harg5 arg6 harg6 arg7 harg7 hc0 x0 x1 x2 x3 = k0_pay2 x0 x1 x2 k0_pay1 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_cons_unit_zero (S := S512x4096) hz]
  simp only [View.readAt_eq_ld, harg2.read_unread, harg3.read_unread, harg4.read_unread, harg5.read_unread,
    readCov_cons_whole (S := S512x4096) _ hz, View.ld_unit_zero (S := S512x4096) hz, View.ld_unit_zero (S := S128x4096) hz,
    View.ld_unit_zero (S := S4096x128) hz]

/-- The first hidden block: the output block is the accumulator read back. -/
theorem out_first (c : Dev nD) (i : grid0.Coords) (arg2 : Memref sig .tc .vmem S512x4096 .bf16) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S4096x128 .bf16) (harg5 : arg5.IsWhole) (arg6 : Memref sig .tc .vmem S512x4096 .f32) (harg6 : arg6.IsWhole) (arg7 : Memref sig .tc .vmem S512x4096 .f32) (harg7 : arg7.IsWhole) (hc0 : cond0_0 i) (x0 : Vec F S512x4096 .bf16) (x1 : Vec F S128x4096 .bf16) (x2 : Vec F S128x4096 .bf16) (x3 : Vec F S4096x128 .bf16) :
    out0_A_4 c i arg2 harg2 arg3 harg3 arg4 harg4 arg5 harg5 arg6 harg6 arg7 harg7 hc0 x0 x1 x2 x3 = k0_pay2 x0 x1 x2 k0_pay1 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S512x4096) hz, readCov_cons_whole _ hz]
  simp only [View.readAt_eq_ld, harg2.read_unread, harg3.read_unread, harg4.read_unread, harg5.read_unread,
    readCov_cons_whole (S := S512x4096) _ hz, View.ld_unit_zero (S := S512x4096) hz, View.ld_unit_zero (S := S128x4096) hz,
    View.ld_unit_zero (S := S4096x128) hz]

end Cert.KernelIdeal.Pieces

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.BodyValue.lean ====
/- What one run of the kernel body computes, at the extended reals.

   The body holds a block of 512 tokens (all 4096 features), the gate and up weights of 128 hidden units, the down
   weights' columns for those 128 units, and an accumulator of 512 x 4096 partial results. It forms the two
   projections g(p, f) = Σ_j x(p, j) · wg(f, j) and u(p, f) = Σ_j x(p, j) · wu(f, j) (the weight blocks are transposed
   before the product, so the product's (p, f) entry pairs row p of x with row f of the weights), the activation
   h(p, f) = (g · σ(g)) · u, and adds Σ_f h(p, f) · wd(q, f) to the accumulator at (p, q). Changes of float format are
   the identity here, and a product accumulated from the zero block is the plain contraction sum. -/
import proofs.«134155_j49220325212289_1_alg».proof.Proof.Gen.KernelIdeal.Skeleton
import proofs.«134155_j49220325212289_1_alg».proof.Proof.LibDotRead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-- A rows-by-contraction block times a contraction-by-columns block, accumulated from the zero block, at (a, b):
    the contraction sum, whatever the operands' float formats. -/
theorem matmul_zero_at {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
      (constant (F := Ideal) ⟨2, ![m, n]⟩ .f32 0x00000000#32) (ix2 a b) = ∑ c : Fin k, A (ix2 a c) * B (ix2 c b) :=
  (Ideal.matmul_constant_zero_apply _ none A B (ix2 a b)).trans (Cert.DotRead.sum_contr_plain w A B a b)

theorem logistic_at {s : Shape} {φ : FTy} (a : FVec Ideal s φ) (i : s.Idx) : logistic a i = Ideal.logistic (a i) := rfl

variable (x : FVec Ideal S512x4096 .bf16) (wg wu : FVec Ideal S128x4096 .bf16) (acc : FVec Ideal S512x4096 .f32)
  (wd : FVec Ideal S4096x128 .bf16)

/-- Token p of the block against hidden unit f of a weight block. -/
def bproj (w : FVec Ideal S128x4096 .bf16) (p : Fin 512) (f : Fin 128) : EReal :=
  ∑ j : Fin 4096, x (ix2 p j) * w (ix2 f j)

/-- The block's gated activation. -/
def bhidden (p : Fin 512) (f : Fin 128) : EReal :=
  (bproj x wg p f * Ideal.logistic (bproj x wg p f)) * bproj x wu p f

/-- The product of the token block with a transposed weight block, from zero. -/
theorem proj_at (w : FVec Ideal S128x4096 .bf16) (p : Fin 512) (f : Fin 128) :
    matmul dot_S512x4096_S4096x128_S512x128_1_0_0_1_n_n none x
      (transpose S4096x128 [1, 0] w transposes_S128x4096_p1_0_S4096x128)
      (constant (F := Ideal) S512x128 .f32 0x00000000#32) (ix2 p f) = bproj x w p f := by
  refine (matmul_zero_at dot_S512x4096_S4096x128_S512x128_1_0_0_1_n_n_wf x _ p f).trans ?_
  unfold bproj
  refine Finset.sum_congr rfl fun j _ => ?_
  rw [transpose_ix2_apply]

/-- The block the reset stores is zero everywhere. -/
theorem reset_at (y : S512x4096.Idx) : k0_pay1 (F := Ideal) y = 0 := by
  unfold k0_pay1
  simp only [shapeCast_self]
  exact Ideal.ofBits_zero_f32

/-- The block the body stores into the accumulator: the accumulator plus this block's 128 terms. -/
theorem update_at (p : Fin 512) (q : Fin 4096) :
    k0_pay2 (F := Ideal) x wg wu acc wd (ix2 p q)
      = acc (ix2 p q) + ∑ f : Fin 128, bhidden x wg wu p f * wd (ix2 q f) := by
  unfold k0_pay2
  simp only [shapeCast_self]
  rw [addf_apply]
  refine congrArg (acc (ix2 p q) + ·) ?_
  refine (matmul_zero_at dot_S512x128_S128x4096_S512x4096_1_0_0_1_n_n_wf _ _ p q).trans ?_
  refine Finset.sum_congr rfl fun f _ => ?_
  rw [transpose_ix2_apply, truncf_apply, mulf_apply, mulf_apply, logistic_at, proj_at, proj_at]
  rfl

end Cert.KernelIdeal.BodyValue

end
-- ==== Proof.Blocks.lean ====
/- The arrays the kernel region finds, and the blocks its four input windows read from them, at the extended reals.

   Before the region the program reshapes x to 8192 rows of tokens and changes the format of the tokens and of the
   three weight arrays; a change of format is the identity here, so the region's arrays ARE the reshaped tokens and
   the weights. The grid is 16 token tiles by 86 hidden blocks, point t = 86 · (tile) + (hidden block). At point t
   the token window reads rows 512 · (t / 86) + p, the gate and up windows read hidden units 128 · (t % 86) + f, and
   the down window reads those same hidden units as columns. -/
import proofs.«134155_j49220325212289_1_alg».proof.Proof.Gen.KernelIdeal.Frame
import proofs.«134155_j49220325212289_1_alg».proof.Proof.MlpSpec
import Idealize.ShloMosaic.Lib.Pipeline.Value
import Idealize.ShloMosaic.Lib.StableHlo.Run
import Idealize.ShloMosaic.Lib.ValueIdx

set_option maxRecDepth 16384

noncomputable section

namespace Cert.KernelIdeal.Blocks

open Cert.KernelIdeal Cert.KernelIdeal.Gen Cert.GatedMlp
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-! ## The four arrays -/

/-- The tokens: x as 8192 rows. -/
abbrev toks (c : Dev nD) : TokS.Idx → EReal :=
  shapeCast S8192x4096 (m ((c : Thread nD τ).loc main_arg0)) shapeCasts_S4x2048x4096_S8192x4096
/-- The gate weights. -/
abbrev gateW (c : Dev nD) : UpS.Idx → EReal := m ((c : Thread nD τ).loc main_arg1)
/-- The up weights. -/
abbrev upW (c : Dev nD) : UpS.Idx → EReal := m ((c : Thread nD τ).loc main_arg2)
/-- The down weights. -/
abbrev downW (c : Dev nD) : DownS.Idx → EReal := m ((c : Thread nD τ).loc main_arg3)

/-- The region's first array is the tokens. -/
theorem arr_toks (c : Dev nD) : (V m c main_v1 : S8192x4096.Idx → EReal) = toks m c := by
  show StableHlo.after hostOps0 (fun b => m (c, b)) (Proc.devRef .tc main_v1) = _
  after_results
  rfl

/-- Its second is the gate weights. -/
theorem arr_gate (c : Dev nD) : (V m c main_v2 : S11008x4096.Idx → EReal) = gateW m c := by
  show StableHlo.after hostOps0 (fun b => m (c, b)) (Proc.devRef .tc main_v2) = _
  after_results
  rfl

/-- Its third is the up weights. -/
theorem arr_up (c : Dev nD) : (V m c main_v3 : S11008x4096.Idx → EReal) = upW m c := by
  show StableHlo.after hostOps0 (fun b => m (c, b)) (Proc.devRef .tc main_v3) = _
  after_results
  rfl

/-- Its fourth is the down weights. -/
theorem arr_down (c : Dev nD) : (V m c main_v4 : S4096x11008.Idx → EReal) = downW m c := by
  show StableHlo.after hostOps0 (fun b => m (c, b)) (Proc.devRef .tc main_v4) = _
  after_results
  rfl

/-! ## The grid -/

theorem point_lt (t : Fin cfg0.N) : t.val < 1376 := lt_of_lt_of_eq t.isLt (show cfg0.N = 1376 from N_0)

/-- The token row that row p of point t's tile is. -/
def tokRow (t : Fin cfg0.N) (p : Fin 512) : Fin 8192 :=
  ⟨512 * (t.val / 86) + p.val, by have := point_lt t; have := p.isLt; omega⟩

/-- The hidden unit that unit f of point t's hidden block is. -/
def hidUnit (t : Fin cfg0.N) (f : Fin 128) : Fin 11008 :=
  ⟨128 * (t.val % 86) + f.val, by have := f.isLt; omega⟩

/-- The windows' block indices, decided over the grid. -/
theorem block_index : ∀ t : Fin cfg0.N,
    win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = t.val % 86 ∧ win0_2.index t (1 : Fin 2) = 0
    ∧ win0_3.index t (0 : Fin 2) = 0 ∧ win0_3.index t (1 : Fin 2) = t.val % 86
    ∧ win0_4.index t (0 : Fin 2) = t.val / 86 ∧ win0_4.index t (1 : Fin 2) = 0 :=
  (by decide +kernel : ∀ t : Fin grid0.N, _)

/-! ## The blocks -/

/-- The token block at point t. -/
abbrev tokBlk (c : Dev nD) (t : Fin cfg0.N) : FVec Ideal S512x4096 .bf16 := iblk m c 0 t
/-- The gate weights' block at point t. -/
abbrev gateBlk (c : Dev nD) (t : Fin cfg0.N) : FVec Ideal S128x4096 .bf16 := iblk m c 1 t
/-- The up weights' block at point t. -/
abbrev upBlk (c : Dev nD) (t : Fin cfg0.N) : FVec Ideal S128x4096 .bf16 := iblk m c 2 t
/-- The down weights' block at point t. -/
abbrev downBlk (c : Dev nD) (t : Fin cfg0.N) : FVec Ideal S4096x128 .bf16 := iblk m c 3 t

theorem tokBlk_at (c : Dev nD) (t : Fin cfg0.N) (p : Fin 512) (j : Fin 4096) :
    tokBlk m c t (ix2 p j) = toks m c (ix2 (tokRow t p) j) := by
  show V m c main_v1 (((cfg0.win 0).blk t).view.emb (ix2 p j)) = _
  rw [arr_toks]
  refine congrArg (toks m c) ?_
  obtain ⟨e0, e1, -⟩ := block_index t
  funext a; apply Fin.ext
  match a with
  | ⟨0, _⟩ => show win0_0.index t (0 : Fin 2) * 512 + 1 * p.val = 512 * (t.val / 86) + p.val; rw [e0]; omega
  | ⟨1, _⟩ => show win0_0.index t (1 : Fin 2) * 4096 + 1 * j.val = j.val; rw [e1]; omega

theorem gateBlk_at (c : Dev nD) (t : Fin cfg0.N) (f : Fin 128) (j : Fin 4096) :
    gateBlk m c t (ix2 f j) = gateW m c (ix2 (hidUnit t f) j) := by
  show V m c main_v2 (((cfg0.win 1).blk t).view.emb (ix2 f j)) = _
  rw [arr_gate]
  refine congrArg (gateW m c) ?_
  obtain ⟨-, -, e0, e1, -⟩ := block_index t
  funext a; apply Fin.ext
  match a with
  | ⟨0, _⟩ => show win0_1.index t (0 : Fin 2) * 128 + 1 * f.val = 128 * (t.val % 86) + f.val; rw [e0]; omega
  | ⟨1, _⟩ => show win0_1.index t (1 : Fin 2) * 4096 + 1 * j.val = j.val; rw [e1]; omega

theorem upBlk_at (c : Dev nD) (t : Fin cfg0.N) (f : Fin 128) (j : Fin 4096) :
    upBlk m c t (ix2 f j) = upW m c (ix2 (hidUnit t f) j) := by
  show V m c main_v3 (((cfg0.win 2).blk t).view.emb (ix2 f j)) = _
  rw [arr_up]
  refine congrArg (upW m c) ?_
  obtain ⟨-, -, -, -, e0, e1, -⟩ := block_index t
  funext a; apply Fin.ext
  match a with
  | ⟨0, _⟩ => show win0_2.index t (0 : Fin 2) * 128 + 1 * f.val = 128 * (t.val % 86) + f.val; rw [e0]; omega
  | ⟨1, _⟩ => show win0_2.index t (1 : Fin 2) * 4096 + 1 * j.val = j.val; rw [e1]; omega

theorem downBlk_at (c : Dev nD) (t : Fin cfg0.N) (q : Fin 4096) (f : Fin 128) :
    downBlk m c t (ix2 q f) = downW m c (ix2 q (hidUnit t f)) := by
  show V m c main_v4 (((cfg0.win 3).blk t).view.emb (ix2 q f)) = _
  rw [arr_down]
  refine congrArg (downW m c) ?_
  obtain ⟨-, -, -, -, -, -, e0, e1, -⟩ := block_index t
  funext a; apply Fin.ext
  match a with
  | ⟨0, _⟩ => show win0_3.index t (0 : Fin 2) * 4096 + 1 * q.val = q.val; rw [e0]; omega
  | ⟨1, _⟩ => show win0_3.index t (1 : Fin 2) * 128 + 1 * f.val = 128 * (t.val % 86) + f.val; rw [e1]; omega

end Cert.KernelIdeal.Blocks

end
-- ==== Proof.Accumulate.lean ====
/- The accumulator after every grid point.

   Point t = 86 · (token tile) + (hidden block k). The body's 128 terms at point t, for row p of the tile and output
   column q, are the terms of hidden block k of out(512 · tile + p, q): the block's projections are the arrays'
   projections at those rows and hidden units. At k = 0 the accumulator is reset to zero and then updated, so it holds
   the first block's partial sum; at k > 0 it is the point before's accumulator, updated, and the point before is
   the same tile's block k − 1. So after point t the accumulator holds the partial sum over the first k + 1 hidden
   blocks, and the output block, a read-back of it, holds the same. -/
import proofs.«134155_j49220325212289_1_alg».proof.Proof.Pieces
import proofs.«134155_j49220325212289_1_alg».proof.Proof.BodyValue
import proofs.«134155_j49220325212289_1_alg».proof.Proof.Blocks

set_option maxRecDepth 16384

noncomputable section

open scoped BigOperators

namespace Cert.KernelIdeal.Accumulate

open Cert.KernelIdeal Cert.KernelIdeal.Gen Cert.GatedMlp Cert.KernelIdeal.Blocks Cert.KernelIdeal.BodyValue
open Idealize.ShloMosaic Idealize.ShloMosaic.TcCoe Idealize.ShloMosaic.ValueIdx Idealize.SL.Sem

variable (m : (ℓ : Loc nD τ sig) → Buf (Elt Ideal) ℓ)

/-! ## One point's terms -/

theorem bproj_gate (c : Dev nD) (t : Fin cfg0.N) (p : Fin 512) (f : Fin 128) :
    bproj (tokBlk m c t) (gateBlk m c t) p f = proj (toks m c) (gateW m c) (tokRow t p) (hidUnit t f) := by
  unfold bproj proj
  refine Finset.sum_congr rfl fun j _ => ?_
  rw [tokBlk_at, gateBlk_at]

theorem bproj_up (c : Dev nD) (t : Fin cfg0.N) (p : Fin 512) (f : Fin 128) :
    bproj (tokBlk m c t) (upBlk m c t) p f = proj (toks m c) (upW m c) (tokRow t p) (hidUnit t f) := by
  unfold bproj proj
  refine Finset.sum_congr rfl fun j _ => ?_
  rw [tokBlk_at, upBlk_at]

theorem bhidden_eq (c : Dev nD) (t : Fin cfg0.N) (p : Fin 512) (f : Fin 128) :
    bhidden (tokBlk m c t) (gateBlk m c t) (upBlk m c t) p f
      = hidden (toks m c) (gateW m c) (upW m c) (tokRow t p) (hidUnit t f) := by
  unfold bhidden Cert.GatedMlp.hidden
  rw [bproj_gate, bproj_up]

/-- The 128 terms the body adds at point t are hidden block t % 86 of the down projection's sum. -/
theorem point_terms (c : Dev nD) (t : Fin cfg0.N) (p : Fin 512) (q : Fin 4096) :
    ∑ f : Fin 128, bhidden (tokBlk m c t) (gateBlk m c t) (upBlk m c t) p f * downBlk m c t (ix2 q f)
      = blockTerms (toks m c) (gateW m c) (upW m c) (downW m c) (tokRow t p) q (t.val % 86) := by
  unfold blockTerms
  refine Finset.sum_congr rfl fun f _ => ?_
  rw [bhidden_eq, downBlk_at]
  have h : 128 * (t.val % 86) + f.val < 11008 := (hidUnit t f).isLt
  unfold term
  rw [dif_pos h]
  rfl

/-! ## The accumulator -/

/-- What the accumulator holds after point t: for each row of the tile and each output column, the partial sum over
    the hidden blocks done so far. -/
def accAt (c : Dev nD) (t : Fin cfg0.N) : FVec Ideal S512x4096 .f32 :=
  fun y => partialOut (toks m c) (gateW m c) (upW m c) (downW m c) (tokRow t (y 0)) (y 1) (t.val % 86 + 1)

/-- One update: from the partial sum over the blocks before this point's, to the one including it. -/
theorem step (c : Dev nD) (t : Fin cfg0.N) (prev : FVec Ideal S512x4096 .f32)
    (hprev : ∀ (p : Fin 512) (q : Fin 4096),
      prev (ix2 p q) = partialOut (toks m c) (gateW m c) (upW m c) (downW m c) (tokRow t p) q (t.val % 86)) :
    k0_pay2 (F := Ideal) (tokBlk m c t) (gateBlk m c t) (upBlk m c t) prev (downBlk m c t) = accAt m c t := by
  funext y
  obtain ⟨p, q, rfl⟩ : ∃ (p : Fin 512) (q : Fin 4096), y = ix2 p q := ⟨y 0, y 1, eq_ix2 y⟩
  rw [update_at, hprev, point_terms]
  exact (partialOut_succ (toks m c) (gateW m c) (upW m c) (downW m c) (tokRow t p) q (t.val % 86)).symm

/-- A point at a tile's first hidden block. -/
theorem first_point (c : Dev nD) (t : Fin cfg0.N) (h0 : t.val % 86 = 0) :
    outsAt0 m c t.val t.isLt = (accAt m c t, accAt m c t) := by
  rw [outsAt0_A m c t h0]
  have e : k0_pay2 (F := Ideal) (tokBlk m c t) (gateBlk m c t) (upBlk m c t) (k0_pay1 (F := Ideal)) (downBlk m c t)
      = accAt m c t :=
    step m c t (k0_pay1 (F := Ideal)) (fun p q => by
      rw [reset_at, h0]
      exact (partialOut_zero (toks m c) (gateW m c) (upW m c) (downW m c) (tokRow t p) q).symm)
  rw [Pieces.out_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
    Pieces.acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t), e]

/-- A point at a later hidden block, given the point before. -/
theorem later_point (c : Dev nD) (t : Fin cfg0.N) (h0 : ¬t.val % 86 = 0)
    (hprev : (outsAt0 m c (t.val - 1) (Nat.lt_of_le_of_lt (Nat.sub_le _ _) t.isLt)).2
      = accAt m c ⟨t.val - 1, Nat.lt_of_le_of_lt (Nat.sub_le _ _) t.isLt⟩) :
    outsAt0 m c t.val t.isLt = (accAt m c t, accAt m c t) := by
  rw [outsAt0_B m c t h0, hprev]
  have e : k0_pay2 (F := Ideal) (tokBlk m c t) (gateBlk m c t) (upBlk m c t)
      (accAt m c ⟨t.val - 1, Nat.lt_of_le_of_lt (Nat.sub_le _ _) t.isLt⟩) (downBlk m c t) = accAt m c t :=
    step m c t _ (fun p q => by
      show partialOut (toks m c) (gateW m c) (upW m c) (downW m c)
        (tokRow ⟨t.val - 1, Nat.lt_of_le_of_lt (Nat.sub_le _ _) t.isLt⟩ p) q ((t.val - 1) % 86 + 1) = _
      have hr : tokRow ⟨t.val - 1, Nat.lt_of_le_of_lt (Nat.sub_le _ _) t.isLt⟩ p = tokRow t p :=
        Fin.ext (by show 512 * ((t.val - 1) / 86) + p.val = 512 * (t.val / 86) + p.val; omega)
      have hk : (t.val - 1) % 86 + 1 = t.val % 86 := by omega
      rw [hr, hk])
  rw [Pieces.out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (accAt m c ⟨t.val - 1, Nat.lt_of_le_of_lt (Nat.sub_le _ _) t.isLt⟩),
    Pieces.acc_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (accAt m c ⟨t.val - 1, Nat.lt_of_le_of_lt (Nat.sub_le _ _) t.isLt⟩), e]

/-- After every point the accumulator and the output block hold the partial sum: by induction on the point. -/
theorem outs_eq (c : Dev nD) : ∀ (n : ℕ) (h : n < cfg0.N), outsAt0 m c n h = (accAt m c ⟨n, h⟩, accAt m c ⟨n, h⟩)
  | 0, h => first_point m c ⟨0, h⟩ rfl
  | n + 1, h => by
    by_cases h0 : (n + 1) % 86 = 0
    · exact first_point m c ⟨n + 1, h⟩ h0
    · exact later_point m c ⟨n + 1, h⟩ h0 (congrArg Prod.snd (outs_eq c n (Nat.lt_of_succ_lt h)))

end Cert.KernelIdeal.Accumulate

end
-- ==== Proof.Result.lean ====
/- The kernel program's result, at the extended reals.

   The output window's block index follows the token tile and does not move with the hidden block, so the block is
   written back once per tile, after the tile's last hidden block (points t with t % 86 = 85). There the
   accumulator holds the partial sum over all 86 hidden blocks, which is the whole sum: the block written back is rows
   512 · tile … 512 · tile + 511 of the gated feed-forward block's function of the tokens and the weights. The 16 tiles'
   blocks cover the array, so the array after the region is that function, and the program's last line reshapes it. -/
import proofs.«134155_j49220325212289_1_alg».proof.Proof.Accumulate
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.GatedMlp Cert.KernelIdeal.Blocks Cert.KernelIdeal.Accumulate
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The block's function of the program's arrays: what the region's output array ends holding. -/
abbrev rows (c : Dev nD) : S8192x4096.Idx → EReal := out (toks m c) (gateW m c) (upW m c) (downW m c)

/-- What a tile's last point writes back is that tile's rows of the function. -/
theorem flushed_eq (c : Dev nD) (t : Fin cfg0.N) (hf : (cfg0.win 4).flush t = true) :
    (dats m 0 c).flushed 4 t = ((cfg0.win 4).blk t).view.read (Elt Ideal) (rows m c) := by
  have h85 : t.val % 86 = 85 := (flush0_4 t).mp hf
  show (cfg0.win 4).cut (grid0.coords t) ((dats m 0 c).after 4 t) = _
  rw [after0_4, outs_eq m c t.val t.isLt]
  obtain ⟨-, -, -, -, -, -, -, -, e0, e1⟩ := block_index t
  funext y
  show accAt m c t y = rows m c (((cfg0.win 4).blk t).view.emb y)
  have hemb : ((cfg0.win 4).blk t).view.emb y = ix2 (tokRow t (y 0)) (y 1) := by
    funext a; apply Fin.ext
    match a with
    | ⟨0, _⟩ => show win0_4.index t (0 : Fin 2) * 512 + 1 * (y 0).val = 512 * (t.val / 86) + (y 0).val; rw [e0]; omega
    | ⟨1, _⟩ => show win0_4.index t (1 : Fin 2) * 4096 + 1 * (y 1).val = (y 1).val; rw [e1]; omega
  rw [hemb]
  unfold accAt
  rw [h85]
  exact partialOut_all (toks m c) (gateW m c) (upW m c) (downW m c) (tokRow t (y 0)) (y 1)

/-- An index of the array is in point t's block iff each coordinate is in the block's range on its axis. -/
theorem mem_blk (t : Fin cfg0.N) (i : S8192x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v5).slice (win0_4.rect t)).set ↔ _
  rw [View.set_slice_whole, Rect.mem_set_unit]
  exact Iff.rfl

/-- Every row is in the block some tile's last point writes back. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 1376 := N_0
  obtain ⟨t, tv⟩ : ∃ t : Fin cfg0.N, t.val = 86 * ((i 0).val / 512) + 85 := ⟨⟨_, by rw [hN]; omega⟩, rfl⟩
  obtain ⟨-, -, -, -, -, -, -, -, e0, e1⟩ := block_index t
  refine ⟨t, (flush0_4 t).mpr (by omega), ?_⟩
  rw [mem_blk]
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 4096 ≤ (i 1).val ∧ (i 1).val < win0_4.index t (1 : Fin 2) * 4096 + 4096
    rw [e1]; omega

/-- The region's output array after the run. -/
theorem final (c : Dev nD) : (dats m 0 c).arrAt 4 cfg0.N = rows m c :=
  (dats m 0 c).arrAt_eq_of_cover 4 (rows m c) (flushed_eq m c) covered

/-- The program's result: those rows, reshaped to [4, 2048, 4096]. -/
abbrev result (c : Dev nD) : Buf (Elt Ideal) ((c : Thread nD τ).loc main_v6) :=
  shapeCast S4x2048x4096 (rows m c) shapeCasts_S8192x4096_S4x2048x4096

/-- The line after the region reshapes the region's output array. -/
theorem tail_eq (c : Dev nD) : Pipeline.afterTail₀ cfgs (dats m) 0 (V0 m) [hostOps1] c main_v6 = result m c := by
  unfold Pipeline.afterTail₀
  show StableHlo.after hostOps1 _ (Proc.devRef .tc main_v6) = _
  after_results
  exact congrArg (fun X : S8192x4096.Idx → EReal => shapeCast S4x2048x4096 X shapeCasts_S8192x4096_S4x2048x4096)
    ((Pipeline.withArrays_arr spec0 launch0.win.arr_inj c (V0 m c) (fun w => (dats m 0 c).arrAt w cfg0.N) 4).trans
      (final m c))

/-- The run, read: the result buffer at the reshaped rows, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/- A gated feed-forward block: tokens x, reshaped to 8192 rows of 4096 features, are projected on 11008 hidden units
   twice (gate and up weights), the gate projection g is passed through g · σ(g) with σ the logistic function and
   multiplied by the up projection, and the product is projected back to 4096 features by the down weights.

   The kernel tiles the tokens by 512 and the hidden units by 128: per grid point it forms the two projections of one
   token tile on one hidden block, the activation, and adds that block's 128 terms of the down projection to an
   accumulator it zeroes at each tile's first hidden block and copies to the output block at every point; the output
   block is written back after the tile's last hidden block. The reference forms the three matrix products whole,
   its activation written g · (1 / (1 + e^(-g))).

   Over the extended reals both are out(r, d) = Σ_f ((g(r,f) · σ(g(r,f))) · u(r,f)) · Wd(d, f): changes of float format
   are the identity, 1 / (1 + e^(-g)) is σ(g), and the kernel's sum over hidden units, taken 128 at a time from zero,
   is the same sum re-associated (86 · 128 = 11008). Addition of extended reals is commutative and associative
   without exception, so the inputs' finiteness is not used.

   The frames of the two kernel programs are the generated ones; the reference's frame is its generated run with the
   result dropped. The idealization rewrote nothing, so there is nothing to preserve. -/
import proofs.«134155_j49220325212289_1_alg».proof.Defs
import proofs.«134155_j49220325212289_1_alg».proof.Proof.Gen.Kernel
import proofs.«134155_j49220325212289_1_alg».proof.Proof.Gen.Kernel.Skeleton
import proofs.«134155_j49220325212289_1_alg».proof.Proof.Gen.Kernel.Launch
import proofs.«134155_j49220325212289_1_alg».proof.Proof.Gen.Kernel.Points
import proofs.«134155_j49220325212289_1_alg».proof.Proof.Gen.Kernel.Frame
import proofs.«134155_j49220325212289_1_alg».proof.Proof.Gen.KernelIdeal
import proofs.«134155_j49220325212289_1_alg».proof.Proof.Gen.KernelIdeal.Skeleton
import proofs.«134155_j49220325212289_1_alg».proof.Proof.Gen.KernelIdeal.Launch
import proofs.«134155_j49220325212289_1_alg».proof.Proof.Gen.KernelIdeal.Points
import proofs.«134155_j49220325212289_1_alg».proof.Proof.Gen.KernelIdeal.Frame
import proofs.«134155_j49220325212289_1_alg».proof.Proof.Gen.ReferenceIdeal
import proofs.«134155_j49220325212289_1_alg».proof.Proof.Gen.Pre_finite_inputs
import proofs.«134155_j49220325212289_1_alg».proof.Proof.Gen.ReferenceIdeal.Run
import proofs.«134155_j49220325212289_1_alg».proof.Proof.Gen.ReferenceIdeal.Read
import proofs.«134155_j49220325212289_1_alg».proof.Proof.RefIsSpec
import proofs.«134155_j49220325212289_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel program ends at the reshaped rows of the block's function of its arrays, and
    the reference at the reshape of its last product, which is that function of the same arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v9_eq]
  unfold Cert.ReferenceIdeal.Read.val_main_v9
  rw [Cert.ReferenceIdeal.RefValue.result_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
